-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096x128 : Shape := ⟨2, ![4096, 128]⟩
abbrev S4096x16 : Shape := ⟨2, ![4096, 16]⟩
abbrev S16x4096 : Shape := ⟨2, ![16, 4096]⟩
abbrev S_ : Shape := ⟨0, ![]⟩
abbrev S4096 : Shape := ⟨1, ![4096]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  reducesTo_S_S_d : S_.ReducesTo [] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S_ .f32) (main_arg6 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S4096 .f32 := Host.absf main_arg6
  let main_cst_8 : FVec F S_ .f32 := constant S_ .f32 0x7F800000#32
  let main_v24 : FVec F S4096 .f32 := broadcastInDim S4096 ![] bcast_S_S4096 main_cst_8
  let main_v25 : IVec S4096 1 := cmpf .olt main_v23 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v22 main_v26
  main_v27

def fn {F : FTy → Type} [FloatOps F] (main_arg0 : FVec F S2048x4096 .f32) (main_arg1 : IVec S4096x4096 32) (main_arg2 : FVec F S4096x128 .f32) (main_arg3 : FVec F S4096x16 .f32) (main_arg4 : FVec F S16x4096 .f32) (main_arg5 : FVec F S_ .f32) (main_arg6 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x16 .f32 := Host.absf main_arg3
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg4
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg5 main_arg6 main_v13 main_v16
-- ==== Kernel.lean ====
abbrev S2048x4096 : Shape := ⟨2, ![2048, 4096]⟩
abbrev S4096x4096 : Shape := ⟨2, ![4096, 4096]⟩
abbrev S4096x128 : Shape := ⟨2, ![4096, 128]⟩
abbrev S4096x16 : Shape := ⟨2, ![4096, 16]⟩
abbrev S16x4096 : Shape := ⟨2, ![16, 4096]⟩
abbrev S_ : Shape := ⟨0, ![]⟩
abbrev S4096 : Shape := ⟨1, ![4096]⟩
abbrev S128x4096 : Shape := ⟨2, ![128, 4096]⟩
abbrev S1x4096 : Shape := ⟨2, ![1, 4096]⟩
abbrev S1x1 : Shape := ⟨2, ![1, 1]⟩
abbrev S1024x256 : Shape := ⟨2, ![1024, 256]⟩
abbrev S8x1024 : Shape := ⟨2, ![8, 1024]⟩
abbrev S1024x16 : Shape := ⟨2, ![1024, 16]⟩
abbrev S16x256 : Shape := ⟨2, ![16, 256]⟩
abbrev S1x1024 : Shape := ⟨2, ![1, 1024]⟩
abbrev S1024x1024 : Shape := ⟨2, ![1024, 1024]⟩
abbrev S1024x8 : Shape := ⟨2, ![1024, 8]⟩
abbrev S1024x1 : Shape := ⟨2, ![1024, 1]⟩
abbrev S1024x32 : Shape := ⟨2, ![1024, 32]⟩

abbrev nBuf : Space → Nat
  | .hbm => 11
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S4096x4096, .i32⟩
  | .hbm, ⟨2, _⟩ => ⟨S4096x128, .f32⟩
  | .hbm, ⟨3, _⟩ => ⟨S4096x16, .f32⟩
  | .hbm, ⟨4, _⟩ => ⟨S16x4096, .f32⟩
  | .hbm, ⟨5, _⟩ => ⟨S_, .f32⟩
  | .hbm, ⟨6, _⟩ => ⟨S4096, .f32⟩
  | .hbm, ⟨7, _⟩ => ⟨S128x4096, .f32⟩
  | .hbm, ⟨8, _⟩ => ⟨S1x4096, .f32⟩
  | .hbm, ⟨9, _⟩ => ⟨S1x1, .f32⟩
  | .hbm, ⟨10, _⟩ => ⟨S2048x4096, .f32⟩
  | .local _ .vmem, ⟨0, _⟩ => ⟨S1024x256, .f32⟩
  | .local _ .vmem, ⟨1, _⟩ => ⟨S1024x256, .f32⟩
  | .local _ .vmem, ⟨2, _⟩ => ⟨S1024x256, .i32⟩
  | .local _ .vmem, ⟨3, _⟩ => ⟨S1024x256, .i32⟩
  | .local _ .vmem, ⟨4, _⟩ => ⟨S8x1024, .f32⟩
  | .local _ .vmem, ⟨5, _⟩ => ⟨S8x1024, .f32⟩
  | .local _ .vmem, ⟨6, _⟩ => ⟨S1024x16, .f32⟩
  | .local _ .vmem, ⟨7, _⟩ => ⟨S1024x16, .f32⟩
  | .local _ .vmem, ⟨8, _⟩ => ⟨S16x256, .f32⟩
  | .local _ .vmem, ⟨9, _⟩ => ⟨S16x256, .f32⟩
  | .local _ .vmem, ⟨10, _⟩ => ⟨S1x1024, .f32⟩
  | .local _ .vmem, ⟨11, _⟩ => ⟨S1x1024, .f32⟩
  | .local _ .vmem, ⟨12, _⟩ => ⟨S1x1, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v55 : BitVec 1 := Scalar.cmpi .eq arg2 c15_i32
  let v56 : BitVec 32 := Scalar.extui v55
  let c0_i32_18 : BitVec 32 := 0#32
  let v57 : BitVec 1 := Scalar.cmpi .ne v56 c0_i32_18
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  transposes_S4096x128_S128x4096_1_0 : S4096x128.Transposes [1, 0] S128x4096
  shapeCasts_S4096_S1x4096 : S4096.ShapeCasts S1x4096
  shapeCasts_S_S1x1 : S_.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  transposes_S8x1024_p1_0_S1024x8 : S8x1024.Transposes [1, 0] S1024x8
  slices_S1024x8_o0_0_S1024x1 : S1024x8.Slices ![0, 0] S1024x1
  shapeCasts_S1024x1_S1024x1 : S1024x1.ShapeCasts S1024x1
  broadcasts_S1024x1_S1024x32 : S1024x1.Broadcasts S1024x32
  slices_S1024x8_o0_1_S1024x1 : S1024x8.Slices ![0, 1] S1024x1
  slices_S1024x8_o0_2_S1024x1 : S1024x8.Slices ![0, 2] S1024x1
  slices_S1024x8_o0_3_S1024x1 : S1024x8.Slices ![0, 3] S1024x1
  slices_S1024x8_o0_4_S1024x1 : S1024x8.Slices ![0, 4] S1024x1
  slices_S1024x8_o0_5_S1024x1 : S1024x8.Slices ![0, 5] S1024x1
  slices_S1024x8_o0_6_S1024x1 : S1024x8.Slices ![0, 6] S1024x1
  slices_S1024x8_o0_7_S1024x1 : S1024x8.Slices ![0, 7] S1024x1
  concatenates_S1024x32_S1024x32_S1024x32_S1024x32_S1024x32_S1024x32_S1024x32_S1024x32_S1024x256_d1 : Shape.Concatenates [S1024x32, S1024x32, S1024x32, S1024x32, S1024x32, S1024x32, S1024x32, S1024x32] S1024x256 1
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x256 : S1x1.Broadcasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x16_S16x256_S1024x256_1_0_0_1_n_n_wf : DotDims.WF S1024x16 S16x256 S1024x256 [1] [0] [0] [1] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S2048x4096.size a
  hwx0_0 : ∀ i : grid0.Coords, EltTy.bits .f32 = 32 ∨ (Rect.block (s := S2048x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .i32 = 32 ∨ (Rect.block (s := S4096x4096) S1024x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S128x4096.size a
  hwx0_2 : ∀ i : grid0.Coords, EltTy.bits .f32 = 32 ∨ (Rect.block (s := S128x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x4096.size a
  hwx0_4 : ∀ i : grid0.Coords, EltTy.bits .f32 = 32 ∨ (Rect.block (s := S16x4096) S16x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S2048x4096.size a
  hwx0_7 : ∀ i : grid0.Coords, EltTy.bits .f32 = 32 ∨ (Rect.block (s := S2048x4096) S1024x1024.size (cc0_transform_7 i) (hinb0_7 i)).WholeWords (EltTy.packing .f32)

variable [Facts₀]

def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096x128 : Shape := ⟨2, ![4096, 128]⟩
abbrev S4096x16 : Shape := ⟨2, ![4096, 16]⟩
abbrev S16x4096 : Shape := ⟨2, ![16, 4096]⟩
abbrev S_ : Shape := ⟨0, ![]⟩
abbrev S4096 : Shape := ⟨1, ![4096]⟩
abbrev S4096x128x32 : Shape := ⟨3, ![4096, 128, 32]⟩
abbrev S4096x128x1 : Shape := ⟨3, ![4096, 128, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .i32⟩
  | .hbm, ⟨2, _⟩ => ⟨S4096x128, .f32⟩
  | .hbm, ⟨3, _⟩ => ⟨S4096x16, .f32⟩
  | .hbm, ⟨4, _⟩ => ⟨S16x4096, .f32⟩
  | .hbm, ⟨5, _⟩ => ⟨S_, .f32⟩
  | .hbm, ⟨6, _⟩ => ⟨S4096, .f32⟩
  | .hbm, ⟨7, _⟩ => ⟨S4096x128x32, .i32⟩
  | .hbm, ⟨8, _⟩ => ⟨S4096x128x32, .f32⟩
  | .hbm, ⟨9, _⟩ => ⟨S_, .f32⟩
  | .hbm, ⟨10, _⟩ => ⟨S4096x128x32, .f32⟩
  | .hbm, ⟨11, _⟩ => ⟨S4096x128x32, .f32⟩
  | .hbm, ⟨12, _⟩ => ⟨S4096x128x1, .f32⟩
  | .hbm, ⟨13, _⟩ => ⟨S4096x128x32, .f32⟩
  | .hbm, ⟨14, _⟩ => ⟨S4096x128x32, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S2048x4096, .f32⟩
  | .hbm, ⟨21, _⟩ => ⟨S1x4096, .f32⟩
  | .hbm, ⟨22, _⟩ => ⟨S2048x4096, .f32⟩
  | .hbm, ⟨23, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  shapeCasts_S4096x4096_S4096x128x32 : S4096x4096.ShapeCasts S4096x128x32
  bcast_S_S4096x128x32 : S_.BroadcastsInDim S4096x128x32 (![] : Fin 0 → Fin S4096x128x32.rank)
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S4096x16_S16x4096_S4096x4096_1_0_0_1_n_n_wf : DotDims.WF S4096x16 S16x4096 S4096x4096 [1] [0] [0] [1] [] []
  dot_S2048x4096_S4096x4096_S2048x4096_1_1_0_0_n_n_wf : DotDims.WF S2048x4096 S4096x4096 S2048x4096 [1] [1] [0] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S2048x4096_S4096x4096_S2048x4096_1_1_0_0_n_n : DotDims S2048x4096 S4096x4096 S2048x4096 where
  lhsContracting := [1]
  rhsContracting := [1]
  lhsNonContracting := [0]
  rhsNonContracting := [0]
  lhsBatch := []
  rhsBatch := []
  wf := dot_S2048x4096_S4096x4096_S2048x4096_1_1_0_0_n_n_wf

class Facts : Prop extends Facts₀ where

variable [Facts]
-- ==== Proof.QuantLinear.lean ====
/-
  The mathematics of the certificate, over literal shapes and with no program in sight.

  A linear layer `y = x · Wᵀ + b` whose weight matrix is stored 4-bit-quantized and patched by a low-rank update:
  entry `(o, i)` of `W` is `(q[o,i] − 8) · s[o, i / 32] + α · Σ_r up[o,r] · down[r,i]` — one scale per group of 32
  consecutive columns, the integer code read exactly — and `y[t,o] = Σ_i x[t,i] · W[o,i] + b[o]`, all on the extended reals.

  The one law the proof needs joins a sum over the 4096 columns with the same sum taken block by block (16 blocks of 256
  columns, added up from zero in order): regrouping a finite sum, which holds in any commutative monoid and so needs no
  finiteness of the entries.
-/
import Idealize.ShloMosaic.PureOps.Ideal
import Idealize.ShloMosaic.PureOps.Ideal.Laws
import Idealize.ShloMosaic.Lib.ValueIdx

noncomputable section

open scoped BigOperators

namespace Cert.QuantLinear

open Idealize.ShloMosaic Idealize.ShloMosaic.ValueIdx

/-- The shapes of the seven arguments and of the result. -/
abbrev Sx : Shape := ⟨2, ![2048, 4096]⟩
abbrev Sq : Shape := ⟨2, ![4096, 4096]⟩
abbrev Ss : Shape := ⟨2, ![4096, 128]⟩
abbrev Sup : Shape := ⟨2, ![4096, 16]⟩
abbrev Sdown : Shape := ⟨2, ![16, 4096]⟩
abbrev Sα : Shape := ⟨0, ![]⟩
abbrev Sb : Shape := ⟨1, ![4096]⟩

/-- The scale group of column `i`: 32 consecutive columns share one scale. -/
abbrev grp (i : Fin 4096) : Fin 128 := ⟨i.val / 32, by have := i.isLt; omega⟩

/-- Entry `(o, i)` of the patched weight matrix: the dequantized code plus `α` times the low-rank product. The code's
    offset `8` is kept as the float word both programs spell it with. -/
def weight (q : Sq.Idx → BitVec 32) (s : Ss.Idx → EReal) (up : Sup.Idx → EReal) (down : Sdown.Idx → EReal)
    (α : Sα.Idx → EReal) (o i : Fin 4096) : EReal :=
  ((((q (ix2 o i)).toInt : ℝ) : EReal) - Ideal.ofBits .f32 0x41000000#32) * s (ix2 o (grp i))
    + α ix0 * ∑ r : Fin 16, up (ix2 o r) * down (ix2 r i)

/-- The layer's output: row `t` of `x` against row `o` of the weight matrix, plus the bias. -/
def result (x : Sx.Idx → EReal) (q : Sq.Idx → BitVec 32) (s : Ss.Idx → EReal) (up : Sup.Idx → EReal)
    (down : Sdown.Idx → EReal) (α : Sα.Idx → EReal) (b : Sb.Idx → EReal) : Sx.Idx → EReal := fun j =>
  (∑ i : Fin 4096, x (ix2 (j 0) i) * weight q s up down α (j 1) i) + b (ix1 (j 1))

/-- A sum over `B · n` consecutive naturals is the sum, over the `n` blocks in order, of each block's `B` terms. -/
theorem sum_range_blocks {M : Type*} [AddCommMonoid M] (g : ℕ → M) (B : ℕ) :
    ∀ n : ℕ, ∑ i ∈ Finset.range (B * n), g i = ∑ s ∈ Finset.range n, ∑ k ∈ Finset.range B, g (B * s + k)
  | 0 => by simp
  | n + 1 => by rw [Nat.mul_succ, Finset.sum_range_add, sum_range_blocks g B n, Finset.sum_range_succ]

/-- The same for a sum over `Fin 4096` of a function of the column's number: 16 blocks of 256. -/
theorem sum_cols_blocks {M : Type*} [AddCommMonoid M] (g : ℕ → M) :
    ∑ i : Fin 4096, g i.val = ∑ s ∈ Finset.range 16, ∑ k : Fin 256, g (256 * s + k.val) := by
  rw [Fin.sum_univ_eq_sum_range g 4096, show (4096 : ℕ) = 256 * 16 from rfl, sum_range_blocks g 256 16]
  exact Finset.sum_congr rfl fun s _ => (Fin.sum_univ_eq_sum_range (fun k => g (256 * s + k)) 256).symm

/-- Column `n` of the product behind `result`, as a function of the column's NUMBER (zero past the last column, which no
    sum below reaches): what the block-by-block form adds up. -/
def term (x : Sx.Idx → EReal) (q : Sq.Idx → BitVec 32) (s : Ss.Idx → EReal) (up : Sup.Idx → EReal)
    (down : Sdown.Idx → EReal) (α : Sα.Idx → EReal) (t : Fin 2048) (o : Fin 4096) (n : ℕ) : EReal :=
  if h : n < 4096 then x (ix2 t ⟨n, h⟩) * weight q s up down α o ⟨n, h⟩ else 0

/-- `result` block by block: zero, plus the 16 blocks' partial products in order, plus the bias — the form an
    accumulation over the contraction axis computes. -/
theorem result_blocks (x : Sx.Idx → EReal) (q : Sq.Idx → BitVec 32) (s : Ss.Idx → EReal) (up : Sup.Idx → EReal)
    (down : Sdown.Idx → EReal) (α : Sα.Idx → EReal) (b : Sb.Idx → EReal) (j : Sx.Idx) :
    result x q s up down α b j
      = (0 + ∑ k ∈ Finset.range 16, ∑ c : Fin 256, term x q s up down α (j 0) (j 1) (256 * k + c.val)) + b (ix1 (j 1)) := by
  unfold result
  rw [zero_add, ← sum_cols_blocks (term x q s up down α (j 0) (j 1))]
  refine congrArg (· + b (ix1 (j 1))) (Finset.sum_congr rfl fun i _ => ?_)
  unfold term
  rw [dif_pos i.isLt]

end Cert.QuantLinear

end
-- ==== Proof.Payloads.lean ====
/-
  The kernel body's arithmetic, read one element at a time on the extended reals.

  The body's five pure terms are: the dequantized weight tile (the integer code minus 8, times the scale of the
  column's group of 32 — the scale tile arrives transposed, one row per group, and is laid out along the columns by
  eight broadcasts joined side by side); the low-rank tile (a 16-term inner product); the accumulation step (the
  accumulator plus the inner product, over the tile's 256 columns, of the x tile with the patched weight tile); the
  bias epilogue; and the zero the accumulator is reset to. A change of float format is the identity on the extended
  reals, and a matrix product into a zero accumulator is the plain sum of products.
-/
import proofs.«181178_j37666863186343_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.TcCoe Idealize.ShloMosaic.ValueIdx

/-! ### The dequantized tile's layout chain

The scale tile has one row per group of 32 columns. The body transposes it, cuts the transposed tile into its eight
columns, lays each column over 32 columns, and joins the eight bands side by side: band `g` covers the columns
`32 g … 32 g + 31`, so column `k` reads the scale of group `k / 32`. -/

/-- One band: column `g` of the transposed scale tile laid over 32 columns reads, at row `p` and any column, the
    scale tile at `(g, p)`. -/
theorem band_apply (v : Vec Ideal S8x1024 .f32) (g : Nat) (hg : g < 8) (h : S1024x8.Slices ![0, g] S1024x1)
    (p : Fin 1024) (c : Fin 32) :
    broadcastTo S1024x32
        (shapeCast S1024x1
          (extractStridedSlice S1024x1 ![0, g]
            (transpose S1024x8 [1, 0] (shapeCast S8x1024 v shapeCasts_S8x1024_S8x1024) transposes_S8x1024_p1_0_S1024x8) h)
          shapeCasts_S1024x1_S1024x1)
        broadcasts_S1024x1_S1024x32 (ix2 p c)
      = v (ix2 (⟨g, hg⟩ : Fin 8) p) := by
  rw [shapeCast_self, shapeCast_self]
  refine (broadcastTo_apply _ broadcasts_S1024x1_S1024x32 (ix2 p c) (ix2 p (0 : Fin 1)) fun a => ?_).trans ?_
  · match a with
    | ⟨0, _⟩ => show p.val = if (1024 : Nat) = 1 then 0 else p.val; rw [if_neg (by decide)]
    | ⟨1, _⟩ => show 0 = if (1 : Nat) = 1 then 0 else c.val; rw [if_pos rfl]
  refine (extractStridedSlice_apply ![0, g] _ h (ix2 p (0 : Fin 1)) (ix2 p (⟨g, hg⟩ : Fin 8)) fun a => ?_).trans ?_
  · match a with
    | ⟨0, _⟩ => show p.val = 0 + p.val; omega
    | ⟨1, _⟩ => show g = g + 0; omega
  refine transpose_apply [1, 0] v transposes_S8x1024_p1_0_S1024x8 (ix2 p (⟨g, hg⟩ : Fin 8)) (ix2 (⟨g, hg⟩ : Fin 8) p) fun b => ?_
  match b with
  | ⟨0, _⟩ => rfl
  | ⟨1, _⟩ => rfl

/-- Eight bands of 32 columns joined side by side: if band `g` is constant along row `p` with value `f g`, the joined
    tile at `(p, k)` is `f (k / 32)`. -/
theorem bands_apply {α : Type} (x0 x1 x2 x3 x4 x5 x6 x7 : S1024x32.Idx → α) (p : Fin 1024) (k : Fin 256) (f : Fin 8 → α)
    (h0 : ∀ c : Fin 32, x0 (ix2 p c) = f 0) (h1 : ∀ c : Fin 32, x1 (ix2 p c) = f 1)
    (h2 : ∀ c : Fin 32, x2 (ix2 p c) = f 2) (h3 : ∀ c : Fin 32, x3 (ix2 p c) = f 3)
    (h4 : ∀ c : Fin 32, x4 (ix2 p c) = f 4) (h5 : ∀ c : Fin 32, x5 (ix2 p c) = f 5)
    (h6 : ∀ c : Fin 32, x6 (ix2 p c) = f 6) (h7 : ∀ c : Fin 32, x7 (ix2 p c) = f 7) :
    concatenate S1024x256 1
        [⟨S1024x32, x0⟩, ⟨S1024x32, x1⟩, ⟨S1024x32, x2⟩, ⟨S1024x32, x3⟩, ⟨S1024x32, x4⟩, ⟨S1024x32, x5⟩, ⟨S1024x32, x6⟩, ⟨S1024x32, x7⟩]
        concatenates_S1024x32_S1024x32_S1024x32_S1024x32_S1024x32_S1024x32_S1024x32_S1024x32_S1024x256_d1 (ix2 p k)
      = f (⟨k.val / 32, by have := k.isLt; omega⟩ : Fin 8) := by
  have hk := k.isLt
  have hc : k.val / 32 = 0 ∨ k.val / 32 = 1 ∨ k.val / 32 = 2 ∨ k.val / 32 = 3 ∨ k.val / 32 = 4 ∨ k.val / 32 = 5
      ∨ k.val / 32 = 6 ∨ k.val / 32 = 7 := by omega
  rcases hc with h | h | h | h | h | h | h | h
  · refine (concatenate_apply_piece (1 : Fin S1024x256.rank)
      [⟨S1024x32, x0⟩, ⟨S1024x32, x1⟩, ⟨S1024x32, x2⟩, ⟨S1024x32, x3⟩, ⟨S1024x32, x4⟩, ⟨S1024x32, x5⟩, ⟨S1024x32, x6⟩, ⟨S1024x32, x7⟩]
      concatenates_S1024x32_S1024x32_S1024x32_S1024x32_S1024x32_S1024x32_S1024x32_S1024x32_S1024x256_d1 (ix2 p k) 0 (by show 0 < 8; decide) S1024x32 x0 rfl rfl 0 rfl
      (ix2 p (⟨k.val % 32, Nat.mod_lt _ (by decide)⟩ : Fin 32)) (fun b => ?_) ?_).trans
      ((h0 _).trans (congrArg f (Fin.ext (by show 0 = k.val / 32; omega))))
    · match b with
      | ⟨0, _⟩ => exact fun _ => rfl
      | ⟨1, _⟩ => exact fun hne => absurd rfl hne
    · show 0 + k.val % 32 = k.val
      omega
  · refine (concatenate_apply_piece (1 : Fin S1024x256.rank)
      [⟨S1024x32, x0⟩, ⟨S1024x32, x1⟩, ⟨S1024x32, x2⟩, ⟨S1024x32, x3⟩, ⟨S1024x32, x4⟩, ⟨S1024x32, x5⟩, ⟨S1024x32, x6⟩, ⟨S1024x32, x7⟩]
      concatenates_S1024x32_S1024x32_S1024x32_S1024x32_S1024x32_S1024x32_S1024x32_S1024x32_S1024x256_d1 (ix2 p k) 1 (by show 1 < 8; decide) S1024x32 x1 rfl rfl 32 rfl
      (ix2 p (⟨k.val % 32, Nat.mod_lt _ (by decide)⟩ : Fin 32)) (fun b => ?_) ?_).trans
      ((h1 _).trans (congrArg f (Fin.ext (by show 1 = k.val / 32; omega))))
    · match b with
      | ⟨0, _⟩ => exact fun _ => rfl
      | ⟨1, _⟩ => exact fun hne => absurd rfl hne
    · show 32 + k.val % 32 = k.val
      omega
  · refine (concatenate_apply_piece (1 : Fin S1024x256.rank)
      [⟨S1024x32, x0⟩, ⟨S1024x32, x1⟩, ⟨S1024x32, x2⟩, ⟨S1024x32, x3⟩, ⟨S1024x32, x4⟩, ⟨S1024x32, x5⟩, ⟨S1024x32, x6⟩, ⟨S1024x32, x7⟩]
      concatenates_S1024x32_S1024x32_S1024x32_S1024x32_S1024x32_S1024x32_S1024x32_S1024x32_S1024x256_d1 (ix2 p k) 2 (by show 2 < 8; decide) S1024x32 x2 rfl rfl 64 rfl
      (ix2 p (⟨k.val % 32, Nat.mod_lt _ (by decide)⟩ : Fin 32)) (fun b => ?_) ?_).trans
      ((h2 _).trans (congrArg f (Fin.ext (by show 2 = k.val / 32; omega))))
    · match b with
      | ⟨0, _⟩ => exact fun _ => rfl
      | ⟨1, _⟩ => exact fun hne => absurd rfl hne
    · show 64 + k.val % 32 = k.val
      omega
  · refine (concatenate_apply_piece (1 : Fin S1024x256.rank)
      [⟨S1024x32, x0⟩, ⟨S1024x32, x1⟩, ⟨S1024x32, x2⟩, ⟨S1024x32, x3⟩, ⟨S1024x32, x4⟩, ⟨S1024x32, x5⟩, ⟨S1024x32, x6⟩, ⟨S1024x32, x7⟩]
      concatenates_S1024x32_S1024x32_S1024x32_S1024x32_S1024x32_S1024x32_S1024x32_S1024x32_S1024x256_d1 (ix2 p k) 3 (by show 3 < 8; decide) S1024x32 x3 rfl rfl 96 rfl
      (ix2 p (⟨k.val % 32, Nat.mod_lt _ (by decide)⟩ : Fin 32)) (fun b => ?_) ?_).trans
      ((h3 _).trans (congrArg f (Fin.ext (by show 3 = k.val / 32; omega))))
    · match b with
      | ⟨0, _⟩ => exact fun _ => rfl
      | ⟨1, _⟩ => exact fun hne => absurd rfl hne
    · show 96 + k.val % 32 = k.val
      omega
  · refine (concatenate_apply_piece (1 : Fin S1024x256.rank)
      [⟨S1024x32, x0⟩, ⟨S1024x32, x1⟩, ⟨S1024x32, x2⟩, ⟨S1024x32, x3⟩, ⟨S1024x32, x4⟩, ⟨S1024x32, x5⟩, ⟨S1024x32, x6⟩, ⟨S1024x32, x7⟩]
      concatenates_S1024x32_S1024x32_S1024x32_S1024x32_S1024x32_S1024x32_S1024x32_S1024x32_S1024x256_d1 (ix2 p k) 4 (by show 4 < 8; decide) S1024x32 x4 rfl rfl 128 rfl
      (ix2 p (⟨k.val % 32, Nat.mod_lt _ (by decide)⟩ : Fin 32)) (fun b => ?_) ?_).trans
      ((h4 _).trans (congrArg f (Fin.ext (by show 4 = k.val / 32; omega))))
    · match b with
      | ⟨0, _⟩ => exact fun _ => rfl
      | ⟨1, _⟩ => exact fun hne => absurd rfl hne
    · show 128 + k.val % 32 = k.val
      omega
  · refine (concatenate_apply_piece (1 : Fin S1024x256.rank)
      [⟨S1024x32, x0⟩, ⟨S1024x32, x1⟩, ⟨S1024x32, x2⟩, ⟨S1024x32, x3⟩, ⟨S1024x32, x4⟩, ⟨S1024x32, x5⟩, ⟨S1024x32, x6⟩, ⟨S1024x32, x7⟩]
      concatenates_S1024x32_S1024x32_S1024x32_S1024x32_S1024x32_S1024x32_S1024x32_S1024x32_S1024x256_d1 (ix2 p k) 5 (by show 5 < 8; decide) S1024x32 x5 rfl rfl 160 rfl
      (ix2 p (⟨k.val % 32, Nat.mod_lt _ (by decide)⟩ : Fin 32)) (fun b => ?_) ?_).trans
      ((h5 _).trans (congrArg f (Fin.ext (by show 5 = k.val / 32; omega))))
    · match b with
      | ⟨0, _⟩ => exact fun _ => rfl
      | ⟨1, _⟩ => exact fun hne => absurd rfl hne
    · show 160 + k.val % 32 = k.val
      omega
  · refine (concatenate_apply_piece (1 : Fin S1024x256.rank)
      [⟨S1024x32, x0⟩, ⟨S1024x32, x1⟩, ⟨S1024x32, x2⟩, ⟨S1024x32, x3⟩, ⟨S1024x32, x4⟩, ⟨S1024x32, x5⟩, ⟨S1024x32, x6⟩, ⟨S1024x32, x7⟩]
      concatenates_S1024x32_S1024x32_S1024x32_S1024x32_S1024x32_S1024x32_S1024x32_S1024x32_S1024x256_d1 (ix2 p k) 6 (by show 6 < 8; decide) S1024x32 x6 rfl rfl 192 rfl
      (ix2 p (⟨k.val % 32, Nat.mod_lt _ (by decide)⟩ : Fin 32)) (fun b => ?_) ?_).trans
      ((h6 _).trans (congrArg f (Fin.ext (by show 6 = k.val / 32; omega))))
    · match b with
      | ⟨0, _⟩ => exact fun _ => rfl
      | ⟨1, _⟩ => exact fun hne => absurd rfl hne
    · show 192 + k.val % 32 = k.val
      omega
  · refine (concatenate_apply_piece (1 : Fin S1024x256.rank)
      [⟨S1024x32, x0⟩, ⟨S1024x32, x1⟩, ⟨S1024x32, x2⟩, ⟨S1024x32, x3⟩, ⟨S1024x32, x4⟩, ⟨S1024x32, x5⟩, ⟨S1024x32, x6⟩, ⟨S1024x32, x7⟩]
      concatenates_S1024x32_S1024x32_S1024x32_S1024x32_S1024x32_S1024x32_S1024x32_S1024x32_S1024x256_d1 (ix2 p k) 7 (by show 7 < 8; decide) S1024x32 x7 rfl rfl 224 rfl
      (ix2 p (⟨k.val % 32, Nat.mod_lt _ (by decide)⟩ : Fin 32)) (fun b => ?_) ?_).trans
      ((h7 _).trans (congrArg f (Fin.ext (by show 7 = k.val / 32; omega))))
    · match b with
      | ⟨0, _⟩ => exact fun _ => rfl
      | ⟨1, _⟩ => exact fun hne => absurd rfl hne
    · show 224 + k.val % 32 = k.val
      omega

/-! ### The two contractions' operand indices

The low-rank product contracts the left operand's axis 1 with the right operand's axis 0; the accumulation step
contracts axis 1 of both. On the free axis an operand index reads the output index's coordinate, on the contracted axis
the contraction index. -/

theorem lora_lhs_0 (i : S1024x256.Idx) (q : dot_S1024x16_S16x256_S1024x256_1_0_0_1_n_n.contr.Idx) : (dot_S1024x16_S16x256_S1024x256_1_0_0_1_n_n.lhsIdx i q 0).val = (i 0).val := by
  unfold DotDims.lhsIdx
  rw [dif_neg (show ¬(0 : Fin S1024x16.rank) ∈ dot_S1024x16_S16x256_S1024x256_1_0_0_1_n_n.lhsBatch by decide),
    dif_pos (show (0 : Fin S1024x16.rank) ∈ dot_S1024x16_S16x256_S1024x256_1_0_0_1_n_n.lhsNonContracting by decide)]
  rfl
theorem lora_lhs_1 (i : S1024x256.Idx) (q : dot_S1024x16_S16x256_S1024x256_1_0_0_1_n_n.contr.Idx) : (dot_S1024x16_S16x256_S1024x256_1_0_0_1_n_n.lhsIdx i q 1).val = (q ⟨0, by decide⟩).val :=
  dot_S1024x16_S16x256_S1024x256_1_0_0_1_n_n.lhsIdx_val_of_single rfl i q
theorem lora_rhs_0 (i : S1024x256.Idx) (q : dot_S1024x16_S16x256_S1024x256_1_0_0_1_n_n.contr.Idx) : (dot_S1024x16_S16x256_S1024x256_1_0_0_1_n_n.rhsIdx i q 0).val = (q ⟨0, by decide⟩).val :=
  dot_S1024x16_S16x256_S1024x256_1_0_0_1_n_n.rhsIdx_val_of_single rfl i q
theorem lora_rhs_1 (i : S1024x256.Idx) (q : dot_S1024x16_S16x256_S1024x256_1_0_0_1_n_n.contr.Idx) : (dot_S1024x16_S16x256_S1024x256_1_0_0_1_n_n.rhsIdx i q 1).val = (i 1).val := by
  unfold DotDims.rhsIdx
  rw [dif_neg (show ¬(1 : Fin S16x256.rank) ∈ dot_S1024x16_S16x256_S1024x256_1_0_0_1_n_n.rhsBatch by decide),
    dif_pos (show (1 : Fin S16x256.rank) ∈ dot_S1024x16_S16x256_S1024x256_1_0_0_1_n_n.rhsNonContracting by decide)]
  rfl

theorem step_lhs_0 (i : S1024x1024.Idx) (q : dot_S1024x256_S1024x256_S1024x1024_1_1_0_0_n_n.contr.Idx) : (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
theorem step_lhs_1 (i : S1024x1024.Idx) (q : dot_S1024x256_S1024x256_S1024x1024_1_1_0_0_n_n.contr.Idx) : (dot_S1024x256_S1024x256_S1024x1024_1_1_0_0_n_n.lhsIdx i q 1).val = (q ⟨0, by decide⟩).val :=
  dot_S1024x256_S1024x256_S1024x1024_1_1_0_0_n_n.lhsIdx_val_of_single rfl i q
theorem step_rhs_0 (i : S1024x1024.Idx) (q : dot_S1024x256_S1024x256_S1024x1024_1_1_0_0_n_n.contr.Idx) : (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
theorem step_rhs_1 (i : S1024x1024.Idx) (q : dot_S1024x256_S1024x256_S1024x1024_1_1_0_0_n_n.contr.Idx) : (dot_S1024x256_S1024x256_S1024x1024_1_1_0_0_n_n.rhsIdx i q 1).val = (q ⟨0, by decide⟩).val :=
  dot_S1024x256_S1024x256_S1024x1024_1_1_0_0_n_n.rhsIdx_val_of_single rfl i q

/-- The low-rank product into a zero accumulator, at `(p, k)`: the sum over the rank. -/
theorem lora_matmul_apply (a : FVec Ideal S1024x16 .bf16) (b : FVec Ideal S16x256 .bf16) (p : Fin 1024) (k : Fin 256) :
    FloatOps.matmul dot_S1024x16_S16x256_S1024x256_1_0_0_1_n_n none a b (constant (F := Ideal) S1024x256 .f32 0x00000000#32) (ix2 p k)
      = ∑ r : Fin 16, a (ix2 p r) * b (ix2 r k) := by
  rw [Ideal.matmul_constant_zero_apply, ← Equiv.sum_comp (contrEquiv1 dot_S1024x16_S16x256_S1024x256_1_0_0_1_n_n 16 rfl rfl).symm]
  refine Finset.sum_congr rfl fun r _ => ?_
  have hr := contrEquiv1_symm_val dot_S1024x16_S16x256_S1024x256_1_0_0_1_n_n 16 rfl rfl r
  have el : dot_S1024x16_S16x256_S1024x256_1_0_0_1_n_n.lhsIdx (ix2 p k) ((contrEquiv1 dot_S1024x16_S16x256_S1024x256_1_0_0_1_n_n 16 rfl rfl).symm r) = ix2 p r := funext fun ax => Fin.ext (by
    match ax with
    | ⟨0, _⟩ => exact lora_lhs_0 _ _
    | ⟨1, _⟩ => exact (lora_lhs_1 _ _).trans hr)
  have er : dot_S1024x16_S16x256_S1024x256_1_0_0_1_n_n.rhsIdx (ix2 p k) ((contrEquiv1 dot_S1024x16_S16x256_S1024x256_1_0_0_1_n_n 16 rfl rfl).symm r) = ix2 r k := funext fun ax => Fin.ext (by
    match ax with
    | ⟨0, _⟩ => exact (lora_rhs_0 _ _).trans hr
    | ⟨1, _⟩ => exact lora_rhs_1 _ _)
  rw [el, er]

/-- The step's product into a zero accumulator, at `(r, p)`: the sum over the tile's columns, both operands read along
    their rows. -/
theorem step_matmul_apply (a b : FVec Ideal S1024x256 .bf16) (r p : Fin 1024) :
    FloatOps.matmul dot_S1024x256_S1024x256_S1024x1024_1_1_0_0_n_n none a b (constant (F := Ideal) S1024x1024 .f32 0x00000000#32) (ix2 r p)
      = ∑ k : Fin 256, a (ix2 r k) * b (ix2 p k) := by
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 r p) ((contrEquiv1 dot_S1024x256_S1024x256_S1024x1024_1_1_0_0_n_n 256 rfl rfl).symm k) = ix2 r k := funext fun ax => Fin.ext (by
    match ax with
    | ⟨0, _⟩ => exact step_lhs_0 _ _
    | ⟨1, _⟩ => exact (step_lhs_1 _ _).trans hk)
  have er : dot_S1024x256_S1024x256_S1024x1024_1_1_0_0_n_n.rhsIdx (ix2 r p) ((contrEquiv1 dot_S1024x256_S1024x256_S1024x1024_1_1_0_0_n_n 256 rfl rfl).symm k) = ix2 p k := funext fun ax => Fin.ext (by
    match ax with
    | ⟨0, _⟩ => exact step_rhs_0 _ _
    | ⟨1, _⟩ => exact (step_rhs_1 _ _).trans hk)
  rw [el, er]

/-- A one-element tile laid over the whole weight tile reads its one element everywhere. -/
theorem splat_apply {α : Type} (v : S1x1.Idx → α) (p : Fin 1024) (k : Fin 256) :
    broadcastTo S1024x256 v broadcasts_S1x1_S1024x256 (ix2 p k) = v (ix2 (0 : Fin 1) (0 : Fin 1)) := by
  refine broadcastTo_apply v broadcasts_S1x1_S1024x256 (ix2 p k) (ix2 (0 : Fin 1) (0 : Fin 1)) fun a => ?_
  match a with
  | ⟨0, _⟩ => show 0 = if (1 : Nat) = 1 then 0 else p.val; rw [if_pos rfl]
  | ⟨1, _⟩ => show 0 = if (1 : Nat) = 1 then 0 else k.val; rw [if_pos rfl]

/-- The dequantized weight tile at row `p`, column `k`: the code read exactly, minus 8, times the scale of group `k / 32`
    (the scale tile is indexed group first). -/
theorem dequant_apply (v3 : Vec Ideal S1024x256 .i32) (v5 : Vec Ideal S8x1024 .f32) (p : Fin 1024) (k : Fin 256) :
    k0_pay4 (F := Ideal) v3 v5 (ix2 p k)
      = ((((v3 (ix2 p k)).toInt : ℝ) : EReal) - Ideal.ofBits .f32 0x41000000#32)
          * v5 (ix2 (⟨k.val / 32, by have := k.isLt; omega⟩ : Fin 8) p) := by
  unfold k0_pay4
  refine (mulf_apply _ _ _).trans ?_
  refine congrArg₂ HMul.hMul rfl ?_
  exact bands_apply _ _ _ _ _ _ _ _ p k (fun g => v5 (ix2 g p))
      (fun c => band_apply v5 0 (by decide) _ p c)
      (fun c => band_apply v5 1 (by decide) _ p c)
      (fun c => band_apply v5 2 (by decide) _ p c)
      (fun c => band_apply v5 3 (by decide) _ p c)
      (fun c => band_apply v5 4 (by decide) _ p c)
      (fun c => band_apply v5 5 (by decide) _ p c)
      (fun c => band_apply v5 6 (by decide) _ p c)
      (fun c => band_apply v5 7 (by decide) _ p c)

/-- The low-rank tile at `(p, k)`: the inner product over the rank. -/
theorem lora_apply (v36 : Vec Ideal S1024x16 .f32) (v38 : Vec Ideal S16x256 .f32) (p : Fin 1024) (k : Fin 256) :
    k0_pay5 (F := Ideal) v36 v38 (ix2 p k) = ∑ r : Fin 16, v36 (ix2 p r) * v38 (ix2 r k) := by
  unfold k0_pay5
  exact lora_matmul_apply _ _ p k

/-- The accumulation step at `(r, p)`: the accumulator there plus, over the tile's columns, x times the patched weight. -/
theorem step_apply (v35 v40 : FVec Ideal S1024x256 .f32) (v41 : Vec Ideal S1x1 .f32) (v46 : Vec Ideal S1024x256 .f32)
    (v50 : Vec Ideal S1024x1024 .f32) (r p : Fin 1024) :
    k0_pay1 (F := Ideal) v35 v40 v41 v46 v50 (ix2 r p)
      = v50 (ix2 r p) + ∑ k : Fin 256, v46 (ix2 r k) * (v35 (ix2 p k) + v41 (ix2 (0 : Fin 1) (0 : Fin 1)) * v40 (ix2 p k)) := by
  unfold k0_pay1
  refine (congrFun (shapeCast_self _ _) _).trans ?_
  refine (addf_apply _ _ _).trans ?_
  refine congrArg (v50 (ix2 r p) + ·) ?_
  refine (step_matmul_apply _ _ r p).trans ?_
  refine Finset.sum_congr rfl fun k _ => ?_
  rw [truncf_apply, truncf_apply, addf_apply, mulf_apply, shapeCast_self, splat_apply]

/-- The epilogue at `(r, p)`: the accumulator plus the bias of column `p`. -/
theorem bias_apply (v58 : Vec Ideal S1024x1024 .f32) (v59 : Vec Ideal S1x1024 .f32) (r p : Fin 1024) :
    k0_pay2 (F := Ideal) v58 v59 (ix2 r p) = v58 (ix2 r p) + v59 (ix2 (0 : Fin 1) p) := by
  unfold k0_pay2
  refine (addf_apply _ _ _).trans ?_
  refine congrArg (v58 (ix2 r p) + ·) ?_
  rw [shapeCast_self]
  refine broadcastTo_apply v59 broadcasts_S1x1024_S1024x1024 (ix2 r p) (ix2 (0 : Fin 1) p) fun a => ?_
  match a with
  | ⟨0, _⟩ => show 0 = if (1 : Nat) = 1 then 0 else r.val; rw [if_pos rfl]
  | ⟨1, _⟩ => show p.val = if (1024 : Nat) = 1 then 0 else p.val; rw [if_neg (by decide)]

/-- The reset value is zero everywhere. -/
theorem zero_apply (y : S1024x1024.Idx) : k0_pay3 (F := Ideal) y = 0 := by
  unfold k0_pay3
  refine (congrFun (shapeCast_self _ _) _).trans ?_
  exact Ideal.ofBits_zero_f32

end Cert.KernelIdeal.Payloads

end
-- ==== Proof.Blocks.lean ====
/-
  Which entries of the argument arrays each grid point's blocks hold.

  The grid is 2 × 4 × 16: point `t` works on row block `t / 64` of x (1024 rows), on output-column block `t / 16 % 4`
  (1024 rows of the weight matrix) and on contraction block `t % 16` (256 columns, that is 8 scale groups). Each window's
  block at a point is the array read at block index × block size + the local coordinate; the scales arrive transposed,
  and the bias and α reshaped to rank 2, by three layout operations before the launch.
-/
import proofs.«181178_j37666863186343_1_alg».proof.Proof.Gen.KernelIdeal.Frame.Runs
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

theorem N128 : cfg0.N = 128 := N_0

/-- Row `r` of point `t`'s x tile is this row of x. -/
abbrev row (t : Fin cfg0.N) (r : Fin 1024) : Fin 2048 :=
  ⟨1024 * (t.val / 64) + r.val, by have h1 := t.isLt; have h2 := N128; have h3 := r.isLt; omega⟩
/-- Row `p` of point `t`'s weight tile is this row of the weight matrix (this output column). -/
abbrev col (t : Fin cfg0.N) (p : Fin 1024) : Fin 4096 :=
  ⟨1024 * (t.val / 16 % 4) + p.val, by have h3 := p.isLt; omega⟩
/-- Column `k` of point `t`'s tiles is this column of x and of the weight matrix. -/
abbrev inn (t : Fin cfg0.N) (k : Fin 256) : Fin 4096 :=
  ⟨256 * (t.val % 16) + k.val, by have h3 := k.isLt; omega⟩
/-- Group `g` of point `t`'s scale tile is this scale group. -/
abbrev grpOf (t : Fin cfg0.N) (g : Fin 8) : Fin 128 :=
  ⟨8 * (t.val % 16) + g.val, by have h3 := g.isLt; omega⟩

/-! ## The block index of each window at each point, decided once over the 128 points -/

/-- x: row block t / 64, contraction block t % 16. -/
theorem idx0 : ∀ t : Fin cfg0.N, win0_0.index t (0 : Fin 2) = t.val / 64 ∧ win0_0.index t (1 : Fin 2) = t.val % 16 :=
  (by decide +kernel : ∀ t : Fin grid0.N, _)

/-- The codes: output-column block t / 16 % 4, contraction block t % 16. -/
theorem idx1 : ∀ t : Fin cfg0.N, win0_1.index t (0 : Fin 2) = t.val / 16 % 4 ∧ win0_1.index t (1 : Fin 2) = t.val % 16 :=
  (by decide +kernel : ∀ t : Fin grid0.N, _)

/-- The transposed scales: contraction block t % 16 (eight groups), output-column block t / 16 % 4. -/
theorem idx2 : ∀ t : Fin cfg0.N, win0_2.index t (0 : Fin 2) = t.val % 16 ∧ win0_2.index t (1 : Fin 2) = t.val / 16 % 4 :=
  (by decide +kernel : ∀ t : Fin grid0.N, _)

/-- The up factor: output-column block t / 16 % 4, all sixteen rank columns. -/
theorem idx3 : ∀ t : Fin cfg0.N, win0_3.index t (0 : Fin 2) = t.val / 16 % 4 ∧ win0_3.index t (1 : Fin 2) = 0 :=
  (by decide +kernel : ∀ t : Fin grid0.N, _)

/-- The down factor: all sixteen rank rows, contraction block t % 16. -/
theorem idx4 : ∀ t : Fin cfg0.N, win0_4.index t (0 : Fin 2) = 0 ∧ win0_4.index t (1 : Fin 2) = t.val % 16 :=
  (by decide +kernel : ∀ t : Fin grid0.N, _)

/-- The bias row: its one row, output-column block t / 16 % 4. -/
theorem idx5 : ∀ t : Fin cfg0.N, win0_5.index t (0 : Fin 2) = 0 ∧ win0_5.index t (1 : Fin 2) = t.val / 16 % 4 :=
  (by decide +kernel : ∀ t : Fin grid0.N, _)

/-- The 1 × 1 array of α: its one block everywhere. -/
theorem idx6 : ∀ t : Fin cfg0.N, win0_6.index t (0 : Fin 2) = 0 ∧ win0_6.index t (1 : Fin 2) = 0 :=
  (by decide +kernel : ∀ t : Fin grid0.N, _)

variable {F : FTy → Type} [FloatOps F]
variable (m : (ℓ : Loc nD τ sig) → Buf (Elt F) ℓ)

theorem x_read (c : Dev nD) (t : Fin cfg0.N) (r : Fin 1024) (k : Fin 256) :
    (iblk m c 0 t : Vec F S1024x256 .f32) (ix2 r k)
      = (m ((c : Thread nD τ).loc main_arg0) : Vec F S2048x4096 .f32) (ix2 (row t r) (inn t k)) := by
  obtain ⟨e0, e1⟩ := idx0 t
  show V m c main_arg0 (((cfg0.win 0).blk t).view.emb (ix2 r k)) = _
  rw [V_main_arg0]
  refine congrArg _ ?_
  funext a; apply Fin.ext
  match a with
  | ⟨0, _⟩ => show win0_0.index t (0 : Fin 2) * 1024 + 1 * r.val = 1024 * (t.val / 64) + r.val; omega
  | ⟨1, _⟩ => show win0_0.index t (1 : Fin 2) * 256 + 1 * k.val = 256 * (t.val % 16) + k.val; omega

theorem q_read (c : Dev nD) (t : Fin cfg0.N) (p : Fin 1024) (k : Fin 256) :
    (iblk m c 1 t : Vec F S1024x256 .i32) (ix2 p k)
      = (m ((c : Thread nD τ).loc main_arg1) : Vec F S4096x4096 .i32) (ix2 (col t p) (inn t k)) := by
  obtain ⟨e0, e1⟩ := idx1 t
  show V m c main_arg1 (((cfg0.win 1).blk t).view.emb (ix2 p k)) = _
  rw [V_main_arg1]
  refine congrArg _ ?_
  funext a; apply Fin.ext
  match a with
  | ⟨0, _⟩ => show win0_1.index t (0 : Fin 2) * 1024 + 1 * p.val = 1024 * (t.val / 16 % 4) + p.val; omega
  | ⟨1, _⟩ => show win0_1.index t (1 : Fin 2) * 256 + 1 * k.val = 256 * (t.val % 16) + k.val; omega

/-- The scale tile is indexed group first: it is a block of the transposed scales. -/
theorem s_read (c : Dev nD) (t : Fin cfg0.N) (g : Fin 8) (p : Fin 1024) :
    (iblk m c 2 t : Vec F S8x1024 .f32) (ix2 g p)
      = (m ((c : Thread nD τ).loc main_arg2) : Vec F S4096x128 .f32) (ix2 (col t p) (grpOf t g)) := by
  obtain ⟨e0, e1⟩ := idx2 t
  -- the array the window stages is the transpose of the scales
  have e : (V m c main_v0 : Vec F S128x4096 .f32)
      = transpose S128x4096 [1, 0] (m ((c : Thread nD τ).loc main_arg2)) transposes_S4096x128_S128x4096_1_0 := by
    dsimp only [Gen.V, Gen.hostOps0]; after_results
  show V m c main_v0 (((cfg0.win 2).blk t).view.emb (ix2 g p)) = _
  rw [e]
  refine transpose_apply _ _ _ _ (ix2 (col t p) (grpOf t g)) ?_
  intro b
  match b with
  | ⟨0, _⟩ => show 8 * (t.val % 16) + g.val = win0_2.index t (0 : Fin 2) * 8 + 1 * g.val; omega
  | ⟨1, _⟩ => show 1024 * (t.val / 16 % 4) + p.val = win0_2.index t (1 : Fin 2) * 1024 + 1 * p.val; omega

theorem up_read (c : Dev nD) (t : Fin cfg0.N) (p : Fin 1024) (r : Fin 16) :
    (iblk m c 3 t : Vec F S1024x16 .f32) (ix2 p r)
      = (m ((c : Thread nD τ).loc main_arg3) : Vec F S4096x16 .f32) (ix2 (col t p) r) := by
  obtain ⟨e0, e1⟩ := idx3 t
  show V m c main_arg3 (((cfg0.win 3).blk t).view.emb (ix2 p r)) = _
  rw [V_main_arg3]
  refine congrArg _ ?_
  funext a; apply Fin.ext
  match a with
  | ⟨0, _⟩ => show win0_3.index t (0 : Fin 2) * 1024 + 1 * p.val = 1024 * (t.val / 16 % 4) + p.val; omega
  | ⟨1, _⟩ => show win0_3.index t (1 : Fin 2) * 16 + 1 * r.val = r.val; omega

theorem down_read (c : Dev nD) (t : Fin cfg0.N) (r : Fin 16) (k : Fin 256) :
    (iblk m c 4 t : Vec F S16x256 .f32) (ix2 r k)
      = (m ((c : Thread nD τ).loc main_arg4) : Vec F S16x4096 .f32) (ix2 r (inn t k)) := by
  obtain ⟨e0, e1⟩ := idx4 t
  show V m c main_arg4 (((cfg0.win 4).blk t).view.emb (ix2 r k)) = _
  rw [V_main_arg4]
  refine congrArg _ ?_
  funext a; apply Fin.ext
  match a with
  | ⟨0, _⟩ => show win0_4.index t (0 : Fin 2) * 16 + 1 * r.val = r.val; omega
  | ⟨1, _⟩ => show win0_4.index t (1 : Fin 2) * 256 + 1 * k.val = 256 * (t.val % 16) + k.val; omega

/-- The bias tile is a block of the bias reshaped to one row. -/
theorem bias_read (c : Dev nD) (t : Fin cfg0.N) (p : Fin 1024) :
    (iblk m c 5 t : Vec F S1x1024 .f32) (ix2 (0 : Fin 1) p)
      = (m ((c : Thread nD τ).loc main_arg6) : Vec F S4096 .f32) (ix1 (col t p)) := by
  obtain ⟨e0, e1⟩ := idx5 t
  -- the array the window stages is the bias laid out as one row
  have e : (V m c main_v1 : Vec F S1x4096 .f32)
      = shapeCast S1x4096 (m ((c : Thread nD τ).loc main_arg6)) shapeCasts_S4096_S1x4096 := by
    dsimp only [Gen.V, Gen.hostOps0]; after_results; rfl
  show V m c main_v1 (((cfg0.win 5).blk t).view.emb (ix2 (0 : Fin 1) p)) = _
  rw [e]
  refine shapeCast_apply _ _ _ (ix1 (col t p)) ?_
  rw [Shape.rowMajor_val_one, Shape.rowMajor_val_two]
  show 1024 * (t.val / 16 % 4) + p.val
    = (win0_5.index t (0 : Fin 2) * 1 + 1 * 0) * 4096 + (win0_5.index t (1 : Fin 2) * 1024 + 1 * p.val)
  omega

/-- The α tile is α, reshaped to 1 × 1. -/
theorem alpha_read (c : Dev nD) (t : Fin cfg0.N) :
    (iblk m c 6 t : Vec F S1x1 .f32) (ix2 (0 : Fin 1) (0 : Fin 1))
      = (m ((c : Thread nD τ).loc main_arg5) : Vec F S_ .f32) ix0 := by
  obtain ⟨e0, e1⟩ := idx6 t
  -- the array the window stages is α laid out as a 1 × 1 matrix
  have e : (V m c main_v2 : Vec F S1x1 .f32)
      = shapeCast S1x1 (m ((c : Thread nD τ).loc main_arg5)) shapeCasts_S_S1x1 := by
    dsimp only [Gen.V, Gen.hostOps0]; after_results; rfl
  show V m c main_v2 (((cfg0.win 6).blk t).view.emb (ix2 (0 : Fin 1) (0 : Fin 1))) = _
  rw [e]
  refine shapeCast_apply _ _ _ ix0 ?_
  rw [Shape.rowMajor_val_two]
  have h0 : (S_.rowMajor ix0).val < 1 := (S_.rowMajor ix0).isLt
  show (S_.rowMajor ix0).val
    = (win0_6.index t (0 : Fin 2) * 1 + 1 * 0) * 1 + (win0_6.index t (1 : Fin 2) * 1 + 1 * 0)
  omega

end Cert.KernelIdeal.Blocks

end
-- ==== Proof.Pieces.lean ====
/-
  What one run of the kernel body leaves behind, as a value.

  At a grid point the body (re)sets the accumulator to zero if the point starts a contraction sweep, adds the point's
  partial product to the accumulator, and, if the point ends a sweep, writes the accumulator plus the bias to the
  output tile. Each store covers its whole buffer, so what a buffer holds afterwards is the last store's value, and a
  load that follows a store reads that value back. Hence: the accumulator ends at the step term applied to zero (first
  point of a sweep) or to what the point before left (any other point), and the output tile at a sweep's last point is
  the bias term of that.
-/
import proofs.«181178_j37666863186343_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First point of a sweep: the accumulator is reset, read back, and stepped once. -/
theorem scratch_A (c : Dev nD) (i : grid0.Coords) (arg3 : Memref sig .tc .vmem S1024x256 .f32) (harg3 : arg3.IsWhole) (arg4 : Memref sig .tc .vmem S1024x256 .i32) (harg4 : arg4.IsWhole) (arg5 : Memref sig .tc .vmem S8x1024 .f32) (harg5 : arg5.IsWhole) (arg6 : Memref sig .tc .vmem S1024x16 .f32) (harg6 : arg6.IsWhole) (arg7 : Memref sig .tc .vmem S16x256 .f32) (harg7 : arg7.IsWhole) (arg8 : Memref sig .tc .vmem S1x1024 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1024x1024 .f32) (harg11 : arg11.IsWhole) (hc0 : cond0_0 i) (hc1 : ¬cond0_1 i) (x0 : Vec F S1024x256 .f32) (x1 : Vec F S1024x256 .i32) (x2 : Vec F S8x1024 .f32) (x3 : Vec F S1024x16 .f32) (x4 : Vec F S16x256 .f32) (x5 : Vec F S1x1024 .f32) (x6 : Vec F S1x1 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay1 (k0_pay4 x1 x2) (k0_pay5 x3 x4) x6 x0 (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1024) hz]
  simp only [View.readAt_eq_ld, harg3.read_unread, harg4.read_unread, harg5.read_unread, harg6.read_unread, harg7.read_unread, harg8.read_unread, harg9.read_unread, harg11.read_unread, View.ld_unit_zero (S := S1024x256) hz, View.ld_unit_zero (S := S8x1024) hz, View.ld_unit_zero (S := S1024x16) hz, View.ld_unit_zero (S := S16x256) hz, View.ld_unit_zero (S := S1x1024) hz, View.ld_unit_zero (S := S1x1) hz, View.ld_unit_zero (S := S1024x1024) hz, View.readCov_unit_zero (S := S1024x1024) _ hz]

/-- A middle point of a sweep: the accumulator the point before left, stepped once. -/
theorem scratch_B (c : Dev nD) (i : grid0.Coords) (arg3 : Memref sig .tc .vmem S1024x256 .f32) (harg3 : arg3.IsWhole) (arg4 : Memref sig .tc .vmem S1024x256 .i32) (harg4 : arg4.IsWhole) (arg5 : Memref sig .tc .vmem S8x1024 .f32) (harg5 : arg5.IsWhole) (arg6 : Memref sig .tc .vmem S1024x16 .f32) (harg6 : arg6.IsWhole) (arg7 : Memref sig .tc .vmem S16x256 .f32) (harg7 : arg7.IsWhole) (arg8 : Memref sig .tc .vmem S1x1024 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i) (x0 : Vec F S1024x256 .f32) (x1 : Vec F S1024x256 .i32) (x2 : Vec F S8x1024 .f32) (x3 : Vec F S1024x16 .f32) (x4 : Vec F S16x256 .f32) (x5 : Vec F S1x1024 .f32) (x6 : Vec F S1x1 .f32) (xs0 : Vec F S1024x1024 .f32) :
    sout0_B_0 c i arg3 harg3 arg4 harg4 arg5 harg5 arg6 harg6 arg7 harg7 arg8 harg8 arg9 harg9 arg10 harg10 arg11 harg11 hc0 hc1 x0 x1 x2 x3 x4 x5 x6 xs0 = k0_pay1 (k0_pay4 x1 x2) (k0_pay5 x3 x4) x6 x0 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg11.read_unread, View.ld_unit_zero (S := S1024x256) hz, View.ld_unit_zero (S := S8x1024) hz, View.ld_unit_zero (S := S1024x16) hz, View.ld_unit_zero (S := S16x256) hz, View.ld_unit_zero (S := S1x1024) hz, View.ld_unit_zero (S := S1x1) hz, View.ld_unit_zero (S := S1024x1024) hz]

/-- The last point of a sweep steps the accumulator the same way … -/
theorem scratch_C (c : Dev nD) (i : grid0.Coords) (arg3 : Memref sig .tc .vmem S1024x256 .f32) (harg3 : arg3.IsWhole) (arg4 : Memref sig .tc .vmem S1024x256 .i32) (harg4 : arg4.IsWhole) (arg5 : Memref sig .tc .vmem S8x1024 .f32) (harg5 : arg5.IsWhole) (arg6 : Memref sig .tc .vmem S1024x16 .f32) (harg6 : arg6.IsWhole) (arg7 : Memref sig .tc .vmem S16x256 .f32) (harg7 : arg7.IsWhole) (arg8 : Memref sig .tc .vmem S1x1024 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i) (x0 : Vec F S1024x256 .f32) (x1 : Vec F S1024x256 .i32) (x2 : Vec F S8x1024 .f32) (x3 : Vec F S1024x16 .f32) (x4 : Vec F S16x256 .f32) (x5 : Vec F S1x1024 .f32) (x6 : Vec F S1x1 .f32) (xs0 : Vec F S1024x1024 .f32) :
    sout0_C_0 c i arg3 harg3 arg4 harg4 arg5 harg5 arg6 harg6 arg7 harg7 arg8 harg8 arg9 harg9 arg10 harg10 arg11 harg11 hc0 hc1 x0 x1 x2 x3 x4 x5 x6 xs0 = k0_pay1 (k0_pay4 x1 x2) (k0_pay5 x3 x4) x6 x0 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg11.read_unread, View.ld_unit_zero (S := S1024x256) hz, View.ld_unit_zero (S := S8x1024) hz, View.ld_unit_zero (S := S1024x16) hz, View.ld_unit_zero (S := S16x256) hz, View.ld_unit_zero (S := S1x1024) hz, View.ld_unit_zero (S := S1x1) hz, View.ld_unit_zero (S := S1024x1024) hz, View.readCov_unit_zero (S := S1024x1024) _ hz]

/-- … and writes the stepped accumulator plus the bias to the output tile. -/
theorem out_C (c : Dev nD) (i : grid0.Coords) (arg3 : Memref sig .tc .vmem S1024x256 .f32) (harg3 : arg3.IsWhole) (arg4 : Memref sig .tc .vmem S1024x256 .i32) (harg4 : arg4.IsWhole) (arg5 : Memref sig .tc .vmem S8x1024 .f32) (harg5 : arg5.IsWhole) (arg6 : Memref sig .tc .vmem S1024x16 .f32) (harg6 : arg6.IsWhole) (arg7 : Memref sig .tc .vmem S16x256 .f32) (harg7 : arg7.IsWhole) (arg8 : Memref sig .tc .vmem S1x1024 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i) (x0 : Vec F S1024x256 .f32) (x1 : Vec F S1024x256 .i32) (x2 : Vec F S8x1024 .f32) (x3 : Vec F S1024x16 .f32) (x4 : Vec F S16x256 .f32) (x5 : Vec F S1x1024 .f32) (x6 : Vec F S1x1 .f32) (xs0 : Vec F S1024x1024 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay2 (k0_pay1 (k0_pay4 x1 x2) (k0_pay5 x3 x4) x6 x0 xs0) x5 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg11.read_unread, View.ld_unit_zero (S := S1024x256) hz, View.ld_unit_zero (S := S8x1024) hz, View.ld_unit_zero (S := S1024x16) hz, View.ld_unit_zero (S := S16x256) hz, View.ld_unit_zero (S := S1x1024) hz, View.ld_unit_zero (S := S1x1) hz, View.ld_unit_zero (S := S1024x1024) hz, View.readCov_unit_zero (S := S1024x1024) _ hz]

end Cert.KernelIdeal.Pieces

end
-- ==== Proof.Accumulate.lean ====
/-
  The accumulator over a contraction sweep, and the output tile it ends in.

  Fix a core and a grid point `t`, working on x row block `t / 64`, weight row block `t / 16 % 4` and column block
  `t % 16`. One run of the body adds to the accumulator, at tile entry `(r, p)`, the partial product of x row
  `1024 (t / 64) + r` with weight row `1024 (t / 16 % 4) + p` over the block's 256 columns: the tiles are the argument
  arrays' blocks, the dequantized weight and the low-rank patch read element by element. A sweep is 16 consecutive
  points sharing the two row blocks; the accumulator starts it at zero, so after the sweep's `j`-th point it holds zero
  plus the first `j + 1` partial products, in order. At the sweep's last point the output tile is that sum over all 16
  column blocks plus the bias: the layer's specified output, by regrouping its sum over the 4096 columns into blocks.
-/
import proofs.«181178_j37666863186343_1_alg».proof.Proof.Gen.KernelIdeal.Value
import proofs.«181178_j37666863186343_1_alg».proof.Proof.QuantLinear
import proofs.«181178_j37666863186343_1_alg».proof.Proof.Payloads
import proofs.«181178_j37666863186343_1_alg».proof.Proof.Blocks
import proofs.«181178_j37666863186343_1_alg».proof.Proof.Pieces

noncomputable section

open scoped BigOperators

namespace Cert.KernelIdeal.Accumulate

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-- The layer's specified output of the argument arrays as launched. -/
abbrev spec (c : Dev nD) : S2048x4096.Idx → EReal :=
  Cert.QuantLinear.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- One column's term of the product of x row `a` with weight row `o`. -/
abbrev colTerm (c : Dev nD) (a : Fin 2048) (o : Fin 4096) (n : ℕ) : EReal :=
  Cert.QuantLinear.term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) a o n

/-- What grid point `n` adds to the accumulator at tile entry `y`: the partial product over the point's column block
    (zero past the grid, which nothing reads). -/
def addend (c : Dev nD) (n : ℕ) (y : S1024x1024.Idx) : EReal :=
  if h : n < cfg0.N then
    ∑ k : Fin 256, colTerm m c (row ⟨n, h⟩ (y 0)) (col ⟨n, h⟩ (y 1)) (256 * (n % 16) + k.val)
  else 0

/-- ONE STEP: the body's accumulation term at point `t`, over any accumulator, adds the point's partial product. -/
theorem step_eq (c : Dev nD) (t : Fin cfg0.N) (acc : Vec Ideal S1024x1024 .f32) (y : S1024x1024.Idx) :
    k0_pay1 (F := Ideal) (k0_pay4 (iblk m c 1 t) (iblk m c 2 t)) (k0_pay5 (iblk m c 3 t) (iblk m c 4 t)) (iblk m c 6 t)
        (iblk m c 0 t) acc y
      = acc y + addend m c t.val y := by
  obtain ⟨r, p, rfl⟩ : ∃ (r p : Fin 1024), y = ix2 r p := ⟨y 0, y 1, eq_ix2 y⟩
  refine (Payloads.step_apply (k0_pay4 (iblk m c 1 t) (iblk m c 2 t)) (k0_pay5 (iblk m c 3 t) (iblk m c 4 t)) (iblk m c 6 t)
    (iblk m c 0 t) acc r p).trans ?_
  unfold addend
  rw [dif_pos t.isLt]
  refine congrArg (acc (ix2 r p) + ·) (Finset.sum_congr rfl fun k _ => ?_)
  rw [Payloads.dequant_apply (iblk m c 1 t) (iblk m c 2 t) p k, Payloads.lora_apply (iblk m c 3 t) (iblk m c 4 t) p k,
    x_read m c t r k, q_read m c t p k, s_read m c t _ p, alpha_read m c t]
  simp only [up_read m c t p, down_read m c t _ k]
  have hk : k.val < 256 := k.isLt
  have hn : 256 * (t.val % 16) + k.val < 4096 := by omega
  have hg : Cert.QuantLinear.grp (inn t k) = grpOf t (⟨k.val / 32, by omega⟩ : Fin 8) :=
    Fin.ext (by show (256 * (t.val % 16) + k.val) / 32 = 8 * (t.val % 16) + k.val / 32; omega)
  show _ = Cert.QuantLinear.term _ _ _ _ _ _ (row t r) (col t p) (256 * (t.val % 16) + k.val)
  unfold Cert.QuantLinear.term
  rw [dif_pos hn]
  unfold Cert.QuantLinear.weight
  rw [show (⟨256 * (t.val % 16) + k.val, hn⟩ : Fin 4096) = inn t k from rfl, hg]

/-- THE FOLD: after point `t` the accumulator holds zero plus the partial products of its sweep's points up to `t`. -/
theorem scratch_eq (c : Dev nD) (t : Fin cfg0.N) (y : S1024x1024.Idx) :
    (outsAt0 m c t.val t.isLt).2 y
      = 0 + ∑ s ∈ Finset.range (t.val % 16 + 1), addend m c (16 * (t.val / 16) + s) y := by
  rw [Value.soutsAt0_0_eq m c t]
  refine Pipeline.accAt_add_apply _ _ (fun _ => (0 : EReal)) (addend m c) (16 * (t.val / 16)) 15 ?_ ?_ (t.val % 16)
    (by omega) _ y
  · intro h i
    have h0 : (16 * (t.val / 16)) % 16 = 0 := by omega
    have h1 : ¬(16 * (t.val / 16)) % 16 = 15 := by omega
    unfold Value.scAt0_0
    rw [dif_pos h0, dif_neg h1, Pieces.scratch_A, step_eq m c ⟨_, h⟩ _ i, Payloads.zero_apply]
  · intro n h acc i hlo hhi
    have h0 : ¬n % 16 = 0 := by omega
    unfold Value.scAt0_0
    rw [dif_neg h0]
    by_cases h1 : n % 16 = 15
    · rw [dif_pos h1, Pieces.scratch_C]
      exact step_eq m c ⟨n, h⟩ acc i
    · rw [dif_neg h1, Pieces.scratch_B]
      exact step_eq m c ⟨n, h⟩ acc i

/-- THE OUTPUT TILE at a sweep's last point is the specified output on the tile's rows and columns. -/
theorem out_eq (c : Dev nD) (t : Fin cfg0.N) (h15 : t.val % 16 = 15) (r p : Fin 1024) :
    (outsAt0 m c t.val t.isLt).1 (ix2 r p) = spec m c (ix2 (row t r) (col t p)) := by
  have h0 : ¬t.val % 16 = 0 := by omega
  have hN : t.val < 128 := lt_of_lt_of_eq t.isLt N128
  have e1 : (outsAt0 m c t.val t.isLt).1 = k0_pay2 (F := Ideal) (outsAt0 m c t.val t.isLt).2 (iblk m c 5 t) := by
    rw [outsAt0_C m c t h0 h15]
    dsimp only
    rw [Pieces.out_C, Pieces.scratch_C]
  rw [e1, Payloads.bias_apply _ (iblk m c 5 t) r p, scratch_eq m c t (ix2 r p), h15, bias_read m c t p]
  unfold spec
  rw [Cert.QuantLinear.result_blocks]
  refine congrArg (· + _) (congrArg (0 + ·) (Finset.sum_congr rfl fun s hs => ?_))
  have hs' : s < 16 := Finset.mem_range.mp hs
  have hb : 16 * (t.val / 16) + s < cfg0.N := lt_of_lt_of_eq (by omega : 16 * (t.val / 16) + s < 128) N128.symm
  unfold addend
  rw [dif_pos hb]
  refine Finset.sum_congr rfl fun k _ => ?_
  have e_row : row ⟨16 * (t.val / 16) + s, hb⟩ r = row t r :=
    Fin.ext (by show 1024 * ((16 * (t.val / 16) + s) / 64) + r.val = 1024 * (t.val / 64) + r.val; omega)
  have e_col : col ⟨16 * (t.val / 16) + s, hb⟩ p = col t p :=
    Fin.ext (by show 1024 * ((16 * (t.val / 16) + s) / 16 % 4) + p.val = 1024 * (t.val / 16 % 4) + p.val; omega)
  have e_blk : (16 * (t.val / 16) + s) % 16 = s := by omega
  show colTerm m c (row ⟨16 * (t.val / 16) + s, hb⟩ r) (col ⟨16 * (t.val / 16) + s, hb⟩ p) (256 * ((16 * (t.val / 16) + s) % 16) + k.val) = _
  rw [e_row, e_col, e_blk]

end Cert.KernelIdeal.Accumulate

end
-- ==== Proof.Result.lean ====
/-
  The result array after the run.

  The output window writes a tile back only at the last point of a contraction sweep (points ≡ 15 mod 16); the tile
  of point `t` is rows `1024 (t / 64) …`, columns `1024 (t / 16 % 4) …` of the result, and the eight flushing points'
  tiles cover the 2048 × 4096 result. What each writes back is the specified output restricted to its tile, so the
  result array ends at the specified output of the arguments.
-/
import proofs.«181178_j37666863186343_1_alg».proof.Proof.Accumulate

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Blocks Cert.KernelIdeal.Accumulate

variable (m : (ℓ : Loc nD τ sig) → Buf (Elt Ideal) ℓ) (ρ : Dev nD → PrngReg)

/-- The output window writes back exactly at the last point of each sweep. -/
theorem flush_iff : ∀ t : Fin cfg0.N, (cfg0.win 7).flush t = true ↔ t.val % 16 = 15 :=
  (by decide +kernel : ∀ t : Fin grid0.N, (cfg0.win 7).flush t = true ↔ t.val % 16 = 15)

/-- The output tile of point `t` is tile `(t / 64, t / 16 % 4)` of the result. -/
theorem out_index : ∀ t : Fin cfg0.N, win0_7.index t (0 : Fin 2) = t.val / 64 ∧ win0_7.index t (1 : Fin 2) = t.val / 16 % 4 :=
  (by decide +kernel : ∀ t : Fin grid0.N, _)

/-- WHAT A FLUSHING POINT WRITES BACK is its tile of the specified output. -/
theorem flushed_eq (c : Dev nD) (t : Fin cfg0.N) (hf : (cfg0.win 7).flush t = true) :
    (dats m 0 c).flushed 7 t = ((cfg0.win 7).blk t).view.read (Elt Ideal) (spec m c) := by
  have h15 : t.val % 16 = 15 := (flush_iff t).mp hf
  obtain ⟨e0, e1⟩ := out_index t
  rw [Value.flushed7]
  funext j
  obtain ⟨r, p, rfl⟩ : ∃ (r p : Fin 1024), j = ix2 r p := ⟨j 0, j 1, eq_ix2 j⟩
  show (outsAt0 m c t.val t.isLt).1 (ix2 r p) = spec m c (((cfg0.win 7).blk t).view.emb (ix2 r p))
  rw [out_eq m c t h15 r p]
  refine congrArg (spec m c) (funext fun a => Fin.ext ?_)
  match a with
  | ⟨0, _⟩ => show 1024 * (t.val / 64) + r.val = win0_7.index t (0 : Fin 2) * 1024 + 1 * r.val; rw [e0]; omega
  | ⟨1, _⟩ => show 1024 * (t.val / 16 % 4) + p.val = win0_7.index t (1 : Fin 2) * 1024 + 1 * p.val; rw [e1]; omega

/-- Every entry of the result lies in the tile of a flushing point: the last point of the sweep of its row and
    column blocks. -/
theorem cover (i : S2048x4096.Idx) :
    ∃ t : Fin cfg0.N, (cfg0.win 7).flush t = true ∧ i ∈ ((cfg0.win 7).blk t).view.set := by
  have h0 : (i 0).val < 2048 := (i 0).isLt
  have h1 : (i 1).val < 4096 := (i 1).isLt
  let t : Fin cfg0.N := ⟨64 * ((i 0).val / 1024) + 16 * ((i 1).val / 1024) + 15,
    lt_of_lt_of_eq (by omega : 64 * ((i 0).val / 1024) + 16 * ((i 1).val / 1024) + 15 < 128) N128.symm⟩
  have ht : t.val = 64 * ((i 0).val / 1024) + 16 * ((i 1).val / 1024) + 15 := rfl
  obtain ⟨e0, e1⟩ := out_index t
  refine ⟨t, (flush_iff t).mpr (by omega), ?_⟩
  show i ∈ ((View.whole main_v3).slice (win0_7.rect t)).set
  rw [View.set_slice_whole, Rect.mem_set_unit]
  intro a
  match a with
  | ⟨0, _⟩ =>
    show win0_7.index t (0 : Fin 2) * 1024 ≤ (i 0).val ∧ (i 0).val < win0_7.index t (0 : Fin 2) * 1024 + 1024
    rw [e0]; omega
  | ⟨1, _⟩ =>
    show win0_7.index t (1 : Fin 2) * 1024 ≤ (i 1).val ∧ (i 1).val < win0_7.index t (1 : Fin 2) * 1024 + 1024
    rw [e1]; omega

/-- THE RESULT ARRAY after the run is the specified output of the arguments. -/
theorem final (c : Dev nD) : (dats m 0 c).arrAt 7 cfg0.N = spec m c :=
  (dats m 0 c).arrAt_eq_of_cover 7 (spec m c) (flushed_eq m c) cover

/-- The kernel's run, read: it terminates with the result array at the specified output and the arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Result

end
-- ==== Proof.RefIsResult.lean ====
/-
  The reference computes the layer's output as specified: its operations, read at an index on the extended reals, are
  the dequantization (the code's row reshaped into 128 groups of 32 and back), the low-rank product scaled by α, the
  matrix product over all 4096 columns, and the bias.
-/
import proofs.«181178_j37666863186343_1_alg».proof.Proof.Gen.ReferenceIdeal.Read
import proofs.«181178_j37666863186343_1_alg».proof.Proof.QuantLinear

noncomputable section

open scoped BigOperators

namespace Cert.ReferenceIdeal.RefValue

open Cert.ReferenceIdeal Cert.ReferenceIdeal.Gen Idealize.ShloMosaic Idealize.ShloMosaic.TcCoe Idealize.ShloMosaic.ValueIdx

/-! ### The composed index maps, at an index given by its coordinates -/

/-- Row `t` of the left operand of the outer product, column `k`. -/
theorem lidx_v12 (t : Fin 2048) (o k : Fin 4096) : Read.lidx_main_v12 (ix2 t o) k = ix2 t k := by
  funext a; match a with | ⟨0, _⟩ => rfl | ⟨1, _⟩ => rfl

/-- Row `o` of the weight matrix, column `k`: the outer product contracts both operands' second axis. -/
theorem ridx_v12 (t : Fin 2048) (o k : Fin 4096) : Read.ridx_main_v12 (ix2 t o) k = ix2 o k := by
  funext a; match a with | ⟨0, _⟩ => rfl | ⟨1, _⟩ => rfl

/-- The bias, broadcast along the rows, is read at the output column. -/
theorem idx_v13_v14 (t : Fin 2048) (o : Fin 4096) : Read.idx_main_v13 (Read.idx_main_v14 (ix2 t o)) = ix1 o := by
  funext a; match a with | ⟨0, _⟩ => rfl

/-- Flat position `o · 4096 + k` of the weight matrix lies in row `o`, group `k / 32`, lane `k % 32`. -/
theorem idx_v7 (o k : Fin 4096) :
    Read.idx_main_v7 (ix2 o k) = ix3 o (Cert.QuantLinear.grp k) (⟨k.val % 32, Nat.mod_lt _ (by decide)⟩ : Fin 32) := by
  have ho := o.isLt
  have hk := k.isLt
  funext a
  match a with
  | ⟨0, _⟩ => exact Fin.ext (by show (o.val * 4096 + k.val) / 4096 = o.val; omega)
  | ⟨1, _⟩ => exact Fin.ext (by show (o.val * 4096 + k.val) / 32 % 128 = k.val / 32; omega)
  | ⟨2, _⟩ => exact Fin.ext (by show (o.val * 4096 + k.val) % 32 = k.val % 32; omega)

/-- Row `o`, group `k / 32`, lane `k % 32` of the grouped codes is entry `(o, k)` of the code matrix. -/
theorem idx_v0 (o k : Fin 4096) :
    Read.idx_main_v0 (ix3 o (Cert.QuantLinear.grp k) (⟨k.val % 32, Nat.mod_lt _ (by decide)⟩ : Fin 32)) = ix2 o k := by
  have ho := o.isLt
  have hk := k.isLt
  funext a
  match a with
  | ⟨0, _⟩ => exact Fin.ext (by show ((o.val * 128 + k.val / 32) * 32 + k.val % 32) / 4096 = o.val; omega)
  | ⟨1, _⟩ => exact Fin.ext (by show ((o.val * 128 + k.val / 32) * 32 + k.val % 32) % 4096 = k.val; omega)

/-- The scale, broadcast over the 32 lanes of a group, is read at its row and group. -/
theorem idx_v4_v5 (o : Fin 4096) (g : Fin 128) (c : Fin 32) :
    Read.idx_main_v4 (Read.idx_main_v5 (ix3 o g c)) = ix2 o g := by
  funext a; match a with | ⟨0, _⟩ => rfl | ⟨1, _⟩ => rfl

/-- Row `o` of the up-projection, rank index `r`. -/
theorem lidx_v8 (o k : Fin 4096) (r : Fin 16) : Read.lidx_main_v8 (ix2 o k) r = ix2 o r := by
  funext a; match a with | ⟨0, _⟩ => rfl | ⟨1, _⟩ => rfl

/-- Rank index `r`, column `k` of the down-projection. -/
theorem ridx_v8 (o k : Fin 4096) (r : Fin 16) : Read.ridx_main_v8 (ix2 o k) r = ix2 r k := by
  funext a; match a with | ⟨0, _⟩ => rfl | ⟨1, _⟩ => rfl

/-! ### The patched weight matrix -/

/-- Entry `(o, k)` of the reference's weight matrix is the specified one: the code minus 8 times its group's scale, plus
    `α` times the low-rank product. -/
theorem v11_eq_weight (x1 : (⟨S4096x4096, .i32⟩ : BufTy).Contents (Elt Ideal))
    (x2 : (⟨S4096x128, .f32⟩ : BufTy).Contents (Elt Ideal)) (x3 : (⟨S4096x16, .f32⟩ : BufTy).Contents (Elt Ideal))
    (x4 : (⟨S16x4096, .f32⟩ : BufTy).Contents (Elt Ideal)) (x5 : (⟨S_, .f32⟩ : BufTy).Contents (Elt Ideal))
    (o k : Fin 4096) :
    Read.val_main_v11 (F := Ideal) x1 x2 x3 x4 x5 (ix2 o k) = Cert.QuantLinear.weight x1 x2 x3 x4 x5 o k := by
  unfold Cert.QuantLinear.weight
  rw [Read.val_main_v11_apply, Read.val_main_v7_apply, idx_v7, Read.val_main_v6_apply, Read.val_main_v3_apply,
    Read.val_main_v1_apply, Read.val_main_v0_apply, idx_v0, Read.val_main_v2_apply, Read.val_main_cst_apply,
    Read.val_main_v5_apply, Read.val_main_v4_apply, idx_v4_v5, Read.val_main_v10_apply, Read.val_main_v9_apply,
    Read.val_main_v8_apply]
  simp only [lidx_v8, ridx_v8]
  rfl

/-- The reference's result term is the specified output of its arguments. -/
theorem ref_eq (x0 : (⟨S2048x4096, .f32⟩ : BufTy).Contents (Elt Ideal)) (x1 : (⟨S4096x4096, .i32⟩ : BufTy).Contents (Elt Ideal))
    (x2 : (⟨S4096x128, .f32⟩ : BufTy).Contents (Elt Ideal)) (x3 : (⟨S4096x16, .f32⟩ : BufTy).Contents (Elt Ideal))
    (x4 : (⟨S16x4096, .f32⟩ : BufTy).Contents (Elt Ideal)) (x5 : (⟨S_, .f32⟩ : BufTy).Contents (Elt Ideal))
    (x6 : (⟨S4096, .f32⟩ : BufTy).Contents (Elt Ideal)) :
    Read.val_main_v15 (F := Ideal) x0 x1 x2 x3 x4 x5 x6 = Cert.QuantLinear.result x0 x1 x2 x3 x4 x5 x6 := by
  funext i
  obtain ⟨t, o, rfl⟩ : ∃ (t : Fin 2048) (o : Fin 4096), i = ix2 t o := ⟨i 0, i 1, eq_ix2 i⟩
  unfold Cert.QuantLinear.result
  rw [Read.val_main_v15_apply, Read.val_main_v12_apply, Read.val_main_v14_apply, Read.val_main_v13_apply, idx_v13_v14]
  simp only [lidx_v12, ridx_v12, v11_eq_weight]
  rfl

end Cert.ReferenceIdeal.RefValue

end
-- ==== Proof.lean ====
/- The certificate of a linear layer with a 4-bit-quantized, low-rank-patched weight matrix.

   The kernel tiles `y = x · Wᵀ + b` over a 2 × 4 × 16 grid — 1024 rows of x, 1024 rows of W, 256 columns per point —,
   dequantizes each weight tile on the fly (`(code − 8) · scale`, one scale per 32 columns), adds `α` times the tile of
   the low-rank product, accumulates the partial products of a sweep of 16 column blocks in a scratch buffer reset at the
   sweep's first point, and writes accumulator plus bias at its last. The reference dequantizes and patches the whole
   matrix and takes one product over all 4096 columns. On the extended reals a change of float format is the identity
   and a matrix product is its sum of products, so the two differ only in how a finite sum is grouped:
   `Σ_{i < 4096} = Σ_{k < 16} Σ_{c < 256}`, which holds in any commutative monoid (Proof/QuantLinear.lean); the
   precondition is therefore not used by the value claim.

   Proof/QuantLinear.lean states the layer's output as one function of the arguments and the regrouping;
   Proof/RefIsResult.lean reads the reference's operations at an index and finds that function; Proof/Payloads.lean
   reads the kernel body's arithmetic at an index, Proof/Blocks.lean says which entries of the arguments each point's
   tiles hold, Proof/Pieces.lean what one run of the body leaves in the accumulator and the output tile,
   Proof/Accumulate.lean folds the sweep, and Proof/Result.lean covers the result array with the sweeps' last tiles.
   The frames are the programs' generated runs; the ideal pass rewrote nothing, so `preserves` is `True`. -/
import proofs.«181178_j37666863186343_1_alg».proof.Defs
import proofs.«181178_j37666863186343_1_alg».proof.Proof.Gen.Kernel
import proofs.«181178_j37666863186343_1_alg».proof.Proof.Gen.Kernel.Skeleton
import proofs.«181178_j37666863186343_1_alg».proof.Proof.Gen.Kernel.Launch
import proofs.«181178_j37666863186343_1_alg».proof.Proof.Gen.Kernel.Points
import proofs.«181178_j37666863186343_1_alg».proof.Proof.Gen.Kernel.Frame
import proofs.«181178_j37666863186343_1_alg».proof.Proof.Gen.KernelIdeal
import proofs.«181178_j37666863186343_1_alg».proof.Proof.Gen.KernelIdeal.Skeleton
import proofs.«181178_j37666863186343_1_alg».proof.Proof.Gen.KernelIdeal.Launch
import proofs.«181178_j37666863186343_1_alg».proof.Proof.Gen.KernelIdeal.Points
import proofs.«181178_j37666863186343_1_alg».proof.Proof.Gen.KernelIdeal.Frame
import proofs.«181178_j37666863186343_1_alg».proof.Proof.Gen.ReferenceIdeal
import proofs.«181178_j37666863186343_1_alg».proof.Proof.Gen.Pre_finite_inputs
import proofs.«181178_j37666863186343_1_alg».proof.Proof.Gen.KernelIdeal.Value
import proofs.«181178_j37666863186343_1_alg».proof.Proof.Gen.ReferenceIdeal.Run
import proofs.«181178_j37666863186343_1_alg».proof.Proof.Gen.ReferenceIdeal.Read
import proofs.«181178_j37666863186343_1_alg».proof.Proof.Result
import proofs.«181178_j37666863186343_1_alg».proof.Proof.RefIsResult
import Idealize.ShloMosaic.Adequacy
import Idealize.ShloMosaic.Init

noncomputable section

namespace Cert.Proof

open Idealize.ShloMosaic Idealize.SL.Sem

/-- The word-level kernel runs and leaves its arguments unchanged: its generated frame. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of array operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the kernel ends with its result array at the layer's specified output
    (Proof/Result.lean) and the reference with its result at the same function of its own arguments
    (Proof/RefIsResult.lean), which are the kernel's. -/
theorem algebraic : Cert.algebraic_KernelIdeal_ReferenceIdeal := by
  intro m ρ m' ρ' _ hagree
  refine ⟨fun c => Cert.KernelIdeal.Accumulate.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v15_eq, Cert.ReferenceIdeal.RefValue.ref_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
